-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "fold_inv_25165824" .f32 0x332AAAAB#32 ((1 / 25165824 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x6x512x512 : Shape := ⟨4, ![16, 6, 512, 512]⟩
abbrev S_ : Shape := ⟨0, ![]⟩

class Facts : Prop where
  bcast_S_S16x6x512x512 : S_.BroadcastsInDim S16x6x512x512 (![] : Fin 0 → Fin S16x6x512x512.rank)
  reducesTo_S16x6x512x512_S_d0_1_2_3 : S16x6x512x512.ReducesTo [0, 1, 2, 3] S_
  h_S_ : 0 < S_.numel

variable [Facts]

def fn {F : FTy → Type} [FloatOps F] (main_arg0 : FVec F S16x6x512x512 .f32) (main_arg1 : FVec F S16x6x512x512 .f32) : IVec S_ 1 :=
  let main_v0 : FVec F S16x6x512x512 .f32 := Host.absf main_arg0
  let main_cst : FVec F S_ .f32 := constant S_ .f32 0x7F800000#32
  let main_v1 : FVec F S16x6x512x512 .f32 := broadcastInDim S16x6x512x512 ![] bcast_S_S16x6x512x512 main_cst
  let main_v2 : IVec S16x6x512x512 1 := cmpf .olt main_v0 main_v1
  let main_c : IVec S_ 1 := constantI S_ 1 1#1
  let main_v3 : IVec S_ 1 := (fun x v => Host.reduce IntOp.andi x v reducesTo_S16x6x512x512_S_d0_1_2_3 h_S_) main_v2 main_c
  let main_v4 : FVec F S16x6x512x512 .f32 := Host.absf main_arg1
  let main_cst_0 : FVec F S_ .f32 := constant S_ .f32 0x7F800000#32
  let main_v5 : FVec F S16x6x512x512 .f32 := broadcastInDim S16x6x512x512 ![] bcast_S_S16x6x512x512 main_cst_0
  let main_v6 : IVec S16x6x512x512 1 := cmpf .olt main_v4 main_v5
  let main_c_1 : IVec S_ 1 := constantI S_ 1 1#1
  let main_v7 : IVec S_ 1 := (fun x v => Host.reduce IntOp.andi x v reducesTo_S16x6x512x512_S_d0_1_2_3 h_S_) main_v6 main_c_1
  let main_v8 : IVec S_ 1 := andi main_v3 main_v7
  main_v8
-- ==== Kernel.lean ====
abbrev S16x6x512x512 : Shape := ⟨4, ![16, 6, 512, 512]⟩
abbrev S96x512x512 : Shape := ⟨3, ![96, 512, 512]⟩
abbrev S1x1 : Shape := ⟨2, ![1, 1]⟩
abbrev S2x512x512 : Shape := ⟨3, ![2, 512, 512]⟩
abbrev S2x512 : Shape := ⟨2, ![2, 512]⟩
abbrev S2x512x1 : Shape := ⟨3, ![2, 512, 1]⟩
abbrev S2x1 : Shape := ⟨2, ![2, 1]⟩
abbrev S2x1x1 : Shape := ⟨3, ![2, 1, 1]⟩
abbrev S1x1x1 : Shape := ⟨3, ![1, 1, 1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S16x6x512x512, .f32⟩
  | .hbm, ⟨1, _⟩ => ⟨S16x6x512x512, .f32⟩
  | .hbm, ⟨2, _⟩ => ⟨S96x512x512, .f32⟩
  | .hbm, ⟨3, _⟩ => ⟨S96x512x512, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S1x1, .f32⟩
  | .local _ .vmem, ⟨5, _⟩ => ⟨S1x1, .f32⟩
  | _, _ => ⟨S16x6x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v51 : BitVec 1 := Scalar.cmpi .eq arg0 c47_i32
  let v52 : BitVec 32 := Scalar.extui v51
  let c0_i32_19 : BitVec 32 := 0#32
  let v53 : BitVec 1 := Scalar.cmpi .ne v52 c0_i32_19
  v53

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16x6x512x512_S96x512x512 : S16x6x512x512.ShapeCasts S96x512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  rotates_S2x512x512_d2 : S2x512x512.Rotates 2 none
  rotates_S2x512x512_d1 : S2x512x512.Rotates 1 none
  iota_S2x512x512_d2_w32 : S2x512x512.Iotas .tc 32 [2]
  iota_S2x512x512_d1_w32 : S2x512x512.Iotas .tc 32 [1]
  reduces_S2x512x512_S2x512 : S2x512x512.Reduces [2] S2x512
  shapeCasts_S2x512_S2x512x1 : S2x512.ShapeCasts S2x512x1
  reduces_S2x512x1_S2x1 : S2x512x1.Reduces [1] S2x1
  shapeCasts_S2x1_S2x1x1 : S2x1.ShapeCasts S2x1x1
  reduces_S2x1x1_S1x1 : S2x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S96x512x512.size a
  hwx0_0 : ∀ i : grid0.Coords, EltTy.bits .f32 = 32 ∨ (Rect.block (s := S96x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S96x512x512.size a
  hwx0_1 : ∀ i : grid0.Coords, EltTy.bits .f32 = 32 ∨ (Rect.block (s := S96x512x512) S2x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x6x512x512 : Shape := ⟨4, ![16, 6, 512, 512]⟩
abbrev S16x6x256x2x256x2 : Shape := ⟨6, ![16, 6, 256, 2, 256, 2]⟩
abbrev S16x6x256x1x256x1 : Shape := ⟨6, ![16, 6, 256, 1, 256, 1]⟩
abbrev S16x6x256x256 : Shape := ⟨4, ![16, 6, 256, 256]⟩
abbrev S_ : Shape := ⟨0, ![]⟩
abbrev S16x6x1x256x256 : Shape := ⟨5, ![16, 6, 1, 256, 256]⟩
abbrev S16x6x4x256x256 : Shape := ⟨5, ![16, 6, 4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S16x6x512x512, .f32⟩
  | .hbm, ⟨1, _⟩ => ⟨S16x6x512x512, .f32⟩
  | .hbm, ⟨2, _⟩ => ⟨S16x6x256x2x256x2, .f32⟩
  | .hbm, ⟨3, _⟩ => ⟨S16x6x256x1x256x1, .f32⟩
  | .hbm, ⟨4, _⟩ => ⟨S16x6x256x256, .f32⟩
  | .hbm, ⟨5, _⟩ => ⟨S16x6x256x1x256x1, .f32⟩
  | .hbm, ⟨6, _⟩ => ⟨S16x6x256x256, .f32⟩
  | .hbm, ⟨7, _⟩ => ⟨S16x6x256x1x256x1, .f32⟩
  | .hbm, ⟨8, _⟩ => ⟨S16x6x256x256, .f32⟩
  | .hbm, ⟨9, _⟩ => ⟨S16x6x256x1x256x1, .f32⟩
  | .hbm, ⟨10, _⟩ => ⟨S16x6x256x256, .f32⟩
  | .hbm, ⟨11, _⟩ => ⟨S16x6x256x256, .f32⟩
  | .hbm, ⟨12, _⟩ => ⟨S16x6x256x256, .f32⟩
  | .hbm, ⟨13, _⟩ => ⟨S16x6x256x256, .f32⟩
  | .hbm, ⟨14, _⟩ => ⟨S_, .f32⟩
  | .hbm, ⟨15, _⟩ => ⟨S16x6x256x256, .f32⟩
  | .hbm, ⟨16, _⟩ => ⟨S16x6x256x256, .f32⟩
  | .hbm, ⟨17, _⟩ => ⟨S16x6x256x256, .f32⟩
  | .hbm, ⟨18, _⟩ => ⟨S16x6x256x256, .f32⟩
  | .hbm, ⟨19, _⟩ => ⟨S16x6x256x256, .f32⟩
  | .hbm, ⟨20, _⟩ => ⟨S_, .f32⟩
  | .hbm, ⟨21, _⟩ => ⟨S16x6x256x256, .f32⟩
  | .hbm, ⟨22, _⟩ => ⟨S16x6x256x256, .f32⟩
  | .hbm, ⟨23, _⟩ => ⟨S16x6x256x256, .f32⟩
  | .hbm, ⟨24, _⟩ => ⟨S16x6x256x256, .f32⟩
  | .hbm, ⟨25, _⟩ => ⟨S16x6x256x256, .f32⟩
  | .hbm, ⟨26, _⟩ => ⟨S_, .f32⟩
  | .hbm, ⟨27, _⟩ => ⟨S16x6x256x256, .f32⟩
  | .hbm, ⟨28, _⟩ => ⟨S16x6x256x256, .f32⟩
  | .hbm, ⟨29, _⟩ => ⟨S16x6x256x256, .f32⟩
  | .hbm, ⟨30, _⟩ => ⟨S16x6x256x256, .f32⟩
  | .hbm, ⟨31, _⟩ => ⟨S16x6x256x256, .f32⟩
  | .hbm, ⟨32, _⟩ => ⟨S_, .f32⟩
  | .hbm, ⟨33, _⟩ => ⟨S16x6x256x256, .f32⟩
  | .hbm, ⟨34, _⟩ => ⟨S16x6x256x256, .f32⟩
  | .hbm, ⟨35, _⟩ => ⟨S16x6x1x256x256, .f32⟩
  | .hbm, ⟨36, _⟩ => ⟨S16x6x1x256x256, .f32⟩
  | .hbm, ⟨37, _⟩ => ⟨S16x6x1x256x256, .f32⟩
  | .hbm, ⟨38, _⟩ => ⟨S16x6x1x256x256, .f32⟩
  | .hbm, ⟨39, _⟩ => ⟨S16x6x4x256x256, .f32⟩
  | .hbm, ⟨40, _⟩ => ⟨S16x6x256x2x256x2, .f32⟩
  | .hbm, ⟨41, _⟩ => ⟨S16x6x256x1x256x1, .f32⟩
  | .hbm, ⟨42, _⟩ => ⟨S16x6x256x256, .f32⟩
  | .hbm, ⟨43, _⟩ => ⟨S16x6x256x1x256x1, .f32⟩
  | .hbm, ⟨44, _⟩ => ⟨S16x6x256x256, .f32⟩
  | .hbm, ⟨45, _⟩ => ⟨S16x6x256x1x256x1, .f32⟩
  | .hbm, ⟨46, _⟩ => ⟨S16x6x256x256, .f32⟩
  | .hbm, ⟨47, _⟩ => ⟨S16x6x256x1x256x1, .f32⟩
  | .hbm, ⟨48, _⟩ => ⟨S16x6x256x256, .f32⟩
  | .hbm, ⟨49, _⟩ => ⟨S16x6x256x256, .f32⟩
  | .hbm, ⟨50, _⟩ => ⟨S16x6x256x256, .f32⟩
  | .hbm, ⟨51, _⟩ => ⟨S16x6x256x256, .f32⟩
  | .hbm, ⟨52, _⟩ => ⟨S_, .f32⟩
  | .hbm, ⟨53, _⟩ => ⟨S16x6x256x256, .f32⟩
  | .hbm, ⟨54, _⟩ => ⟨S16x6x256x256, .f32⟩
  | .hbm, ⟨55, _⟩ => ⟨S16x6x256x256, .f32⟩
  | .hbm, ⟨56, _⟩ => ⟨S16x6x256x256, .f32⟩
  | .hbm, ⟨57, _⟩ => ⟨S16x6x256x256, .f32⟩
  | .hbm, ⟨58, _⟩ => ⟨S_, .f32⟩
  | .hbm, ⟨59, _⟩ => ⟨S16x6x256x256, .f32⟩
  | .hbm, ⟨60, _⟩ => ⟨S16x6x256x256, .f32⟩
  | .hbm, ⟨61, _⟩ => ⟨S16x6x256x256, .f32⟩
  | .hbm, ⟨62, _⟩ => ⟨S16x6x256x256, .f32⟩
  | .hbm, ⟨63, _⟩ => ⟨S16x6x256x256, .f32⟩
  | .hbm, ⟨64, _⟩ => ⟨S_, .f32⟩
  | .hbm, ⟨65, _⟩ => ⟨S16x6x256x256, .f32⟩
  | .hbm, ⟨66, _⟩ => ⟨S16x6x256x256, .f32⟩
  | .hbm, ⟨67, _⟩ => ⟨S16x6x256x256, .f32⟩
  | .hbm, ⟨68, _⟩ => ⟨S16x6x256x256, .f32⟩
  | .hbm, ⟨69, _⟩ => ⟨S16x6x256x256, .f32⟩
  | .hbm, ⟨70, _⟩ => ⟨S_, .f32⟩
  | .hbm, ⟨71, _⟩ => ⟨S16x6x256x256, .f32⟩
  | .hbm, ⟨72, _⟩ => ⟨S16x6x256x256, .f32⟩
  | .hbm, ⟨73, _⟩ => ⟨S16x6x1x256x256, .f32⟩
  | .hbm, ⟨74, _⟩ => ⟨S16x6x1x256x256, .f32⟩
  | .hbm, ⟨75, _⟩ => ⟨S16x6x1x256x256, .f32⟩
  | .hbm, ⟨76, _⟩ => ⟨S16x6x1x256x256, .f32⟩
  | .hbm, ⟨77, _⟩ => ⟨S16x6x4x256x256, .f32⟩
  | .hbm, ⟨78, _⟩ => ⟨S16x6x4x256x256, .f32⟩
  | .hbm, ⟨79, _⟩ => ⟨S16x6x4x256x256, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S16x6x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_5 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_6 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_7 : Ref sig .tc := ⟨.hbm, 80, rfl⟩
abbrev main_v70 : Ref sig .tc := ⟨.hbm, 81, rfl⟩
abbrev main_cst_8 : Ref sig .tc := ⟨.hbm, 82, rfl⟩
abbrev main_v71 : Ref sig .tc := ⟨.hbm, 83, rfl⟩
abbrev main_cst_9 : Ref sig .tc := ⟨.hbm, 84, rfl⟩
abbrev main_v72 : Ref sig .tc := ⟨.hbm, 85, rfl⟩

abbrev nD : Nat := 1
abbrev τ : Topo := Topo.v7x

variable {F : FTy → Type} [FloatOps F]

class Facts₀ : Prop where
  shapeCasts_S16x6x512x512_S16x6x256x2x256x2 : S16x6x512x512.ShapeCasts S16x6x256x2x256x2
  slices_S16x6x256x2x256x2_S16x6x256x1x256x1_0_0_0_0_0_0 : S16x6x256x2x256x2.Slices ![0, 0, 0, 0, 0, 0] S16x6x256x1x256x1
  shapeCasts_S16x6x256x1x256x1_S16x6x256x256 : S16x6x256x1x256x1.ShapeCasts S16x6x256x256
  slices_S16x6x256x2x256x2_S16x6x256x1x256x1_0_0_0_0_0_1 : S16x6x256x2x256x2.Slices ![0, 0, 0, 0, 0, 1] S16x6x256x1x256x1
  slices_S16x6x256x2x256x2_S16x6x256x1x256x1_0_0_0_1_0_0 : S16x6x256x2x256x2.Slices ![0, 0, 0, 1, 0, 0] S16x6x256x1x256x1
  slices_S16x6x256x2x256x2_S16x6x256x1x256x1_0_0_0_1_0_1 : S16x6x256x2x256x2.Slices ![0, 0, 0, 1, 0, 1] S16x6x256x1x256x1
  bcast_S_S16x6x256x256 : S_.BroadcastsInDim S16x6x256x256 (![] : Fin 0 → Fin S16x6x256x256.rank)
  bcast_S16x6x256x256_S16x6x1x256x256_0_1_3_4 : S16x6x256x256.BroadcastsInDim S16x6x1x256x256 (![0, 1, 3, 4] : Fin 4 → Fin S16x6x1x256x256.rank)
  concatenates_S16x6x1x256x256_S16x6x1x256x256_S16x6x1x256x256_S16x6x1x256x256_S16x6x4x256x256_d2 : Shape.Concatenates [S16x6x1x256x256, S16x6x1x256x256, S16x6x1x256x256, S16x6x1x256x256] S16x6x4x256x256 2
  reducesTo_S16x6x4x256x256_S_d0_1_2_3_4 : S16x6x4x256x256.ReducesTo [0, 1, 2, 3, 4] S_
  h_S_ : 0 < S_.numel

variable [Facts₀]

class Facts : Prop extends Facts₀ where

variable [Facts]
-- ==== Proof.KernelCases.lean ====
/-
  What one run of the kernel body leaves, case by case, as the body's own arithmetic applied to what it loaded.
  The body has three control cases. At the first grid point it stores zero into the scratch cell, reads it back and
  stores back zero plus the block's sum. At the points in between it reads the cell and stores back its contents plus
  the block's sum. At the last point it does the same and then stores the cell's new contents times the named constant
  into the output block. Each stored value is a covering store of the whole 1 × 1 cell, so what the cell holds
  afterwards is that store's value, a pure function of the two loaded blocks and of what the cell held before.
-/
import proofs.«418155_j79113297592488_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point: the scratch cell ends at the update of the reset value by the block's sum. -/
theorem scratch_first (c : Dev nD) (i : grid0.Coords) (a1 : Memref sig .tc .vmem S2x512x512 .f32) (h1 : a1.IsWhole)
    (a2 : Memref sig .tc .vmem S2x512x512 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S2x512x512 .f32) :
    sout0_A_0 c i a1 h1 a2 h2 a3 h3 a4 h4 hc0 hc1 x0 x1 = k0_pay1 (k0_pay4 x0 x1) (k0_pay3 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h4.read_unread, View.ld_unit_zero (S := S2x512x512) hz3,
    View.ld_unit_zero (S := S1x1) hz2, View.readCov_unit_zero (S := S1x1) _ hz2]

/-- A point in between: the scratch cell ends at the update of its previous contents by the block's sum. -/
theorem scratch_middle (c : Dev nD) (i : grid0.Coords) (a1 : Memref sig .tc .vmem S2x512x512 .f32) (h1 : a1.IsWhole)
    (a2 : Memref sig .tc .vmem S2x512x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S2x512x512 .f32) (xs0 : Vec F S1x1 .f32) :
    sout0_B_0 c i a1 h1 a2 h2 a3 h3 a4 h4 hc0 hc1 x0 x1 xs0 = k0_pay1 (k0_pay4 x0 x1) xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz2]
  simp only [View.readAt_eq_ld, h1.read_unread, h2.read_unread, h4.read_unread, View.ld_unit_zero (S := S2x512x512) hz3,
    View.ld_unit_zero (S := S1x1) hz2, View.readCov_unit_zero (S := S1x1) _ hz2]

/-- The last point: the scratch cell likewise, -/
theorem scratch_last (c : Dev nD) (i : grid0.Coords) (a1 : Memref sig .tc .vmem S2x512x512 .f32) (h1 : a1.IsWhole)
    (a2 : Memref sig .tc .vmem S2x512x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2x512x512 .f32) (xs0 : Vec F S1x1 .f32) :
    sout0_C_0 c i a1 h1 a2 h2 a3 h3 a4 h4 hc0 hc1 x0 x1 xs0 = k0_pay1 (k0_pay4 x0 x1) xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S2x512x512) hz3,
    View.ld_unit_zero (S := S1x1) hz2, View.readCov_unit_zero (S := S1x1) _ hz2]

/-- and the output block ends at the scaling of the cell's new contents. -/
theorem output_last (c : Dev nD) (i : grid0.Coords) (a1 : Memref sig .tc .vmem S2x512x512 .f32) (h1 : a1.IsWhole)
    (a2 : Memref sig .tc .vmem S2x512x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2x512x512 .f32) (xs0 : Vec F S1x1 .f32) :
    out0_C_2 c i a1 h1 a2 h2 a3 h3 a4 h4 hc0 hc1 x0 x1 xs0 = k0_pay2 (k0_pay1 (k0_pay4 x0 x1) xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S2x512x512) hz3,
    View.ld_unit_zero (S := S1x1) hz2, View.readCov_unit_zero (S := S1x1) _ hz2]

end Cert.KernelIdeal.Cases

end
-- ==== Proof.KernelRun.lean ====
/-
  The kernel's run, read as a value. Over the 48 grid points the scratch cell holds a running total: after point n
  it is the update, by point n's block sum, of what point n − 1 left (zero before the first point): an induction on
  the point over the three cases' values. Only the last point writes the output block back, and that one block is the
  whole 1 × 1 result array, which therefore ends at the scaling of the total after point 47. The host lines after the
  region reshape it to a scalar and multiply by the constant one; the argument arrays end as launched.
-/
import proofs.«418155_j79113297592488_3_alg».proof.Proof.KernelCases
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Cases

variable {F : FTy → Type} [FloatOps F] [Named F]
variable (m : (ℓ : Loc nD τ sig) → Buf (Elt F) ℓ) (ρ : Dev nD → PrngReg)

/-- The two input blocks at a grid point, at their literal type. -/
abbrev pblk (c : Dev nD) (t : Fin cfg0.N) : Vec F S2x512x512 .f32 := iblk m c 0 t
abbrev tblk (c : Dev nD) (t : Fin cfg0.N) : Vec F S2x512x512 .f32 := iblk m c 1 t

/-- The running total after point n. -/
def total (c : Dev nD) : (n : ℕ) → n < cfg0.N → Vec F S1x1 .f32
  | 0, h => k0_pay1 (k0_pay4 (pblk m c ⟨0, h⟩) (tblk m c ⟨0, h⟩)) (k0_pay3 (F := F))
  | n + 1, h => k0_pay1 (k0_pay4 (pblk m c ⟨n + 1, h⟩) (tblk m c ⟨n + 1, h⟩)) (total c n (Nat.lt_of_succ_lt h))

/-- What the scratch cell holds after point n is the running total: by induction on the point. -/
theorem scratch_eq_total (c : Dev nD) : ∀ (n : ℕ) (h : n < cfg0.N), (outsAt0 m c n h).2 = total m c n h
  | 0, h => by
    rw [outsAt0_A m c ⟨0, h⟩ rfl (by dsimp only; omega)]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (pblk m c ⟨0, h⟩) (tblk m c ⟨0, h⟩)
  | n + 1, h => by
    have hN : cfg0.N = 48 := N_0
    have h0 : ¬(⟨n + 1, h⟩ : Fin cfg0.N).val % 48 = 0 := by dsimp only; omega
    by_cases h1 : (⟨n + 1, h⟩ : Fin cfg0.N).val % 48 = 47
    · rw [outsAt0_C m c ⟨n + 1, h⟩ h0 h1]
      dsimp only
      refine (scratch_last c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (pblk m c ⟨n + 1, h⟩) (tblk m c ⟨n + 1, h⟩) _).trans ?_
      show k0_pay1 _ (outsAt0 m c n _).2 = k0_pay1 _ (total m c n _)
      rw [scratch_eq_total c n]
    · rw [outsAt0_B m c ⟨n + 1, h⟩ h0 h1]
      dsimp only
      refine (scratch_middle c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (pblk m c ⟨n + 1, h⟩) (tblk m c ⟨n + 1, h⟩) _).trans ?_
      show k0_pay1 _ (outsAt0 m c n _).2 = k0_pay1 _ (total m c n _)
      rw [scratch_eq_total c n]

theorem h47 : 47 < cfg0.N := by rw [show cfg0.N = 48 from N_0]; decide

/-- What the last point stores into the output block: the scaling of the total. -/
abbrev result (c : Dev nD) : Vec F S1x1 .f32 := k0_pay2 (total m c 47 h47)

theorem output_eq_result (c : Dev nD) : (outsAt0 m c 47 h47).1 = result m c := by
  have h0 : ¬(⟨47, h47⟩ : Fin cfg0.N).val % 48 = 0 := by decide
  have h1 : (⟨47, h47⟩ : Fin cfg0.N).val % 48 = 47 := by decide
  rw [outsAt0_C m c ⟨47, h47⟩ h0 h1]
  dsimp only
  refine (output_last c (grid0.coords ⟨47, h47⟩) (ms0_0 ⟨47, h47⟩) (hs0_0 ⟨47, h47⟩) (ms0_1 ⟨47, h47⟩) (hs0_1 ⟨47, h47⟩)
    (ms0_2 ⟨47, h47⟩) (hs0_2 ⟨47, h47⟩) scM0_0 (Memref.isWhole_whole _) _ _ (pblk m c ⟨47, h47⟩) (tblk m c ⟨47, h47⟩) _).trans ?_
  show k0_pay2 (k0_pay1 _ (outsAt0 m c 46 _).2) = k0_pay2 (k0_pay1 _ (total m c 46 _))
  rw [scratch_eq_total m c 46]

/-- The one write-back, at the last point, writes the result: block (0, 0) of the 1 × 1 array is the array. -/
theorem flushed_eq (c : Dev nD) (t : Fin cfg0.N) (hf : (cfg0.win 2).flush t = true) :
    (dats m 0 c).flushed 2 t = ((cfg0.win 2).blk t).view.read (Elt F) (result m c) := by
  have hN : cfg0.N = 48 := N_0
  have h3 : t.val = 47 := by have := (flush0_2 t).mp hf; have := t.isLt; omega
  obtain rfl : t = ⟨47, h47⟩ := Fin.ext h3
  show (cfg0.win 2).cut (grid0.coords ⟨47, h47⟩) ((dats m 0 c).after 2 ⟨47, h47⟩) = _
  rw [after0_2, output_eq_result]
  have hz' : (fun a => win0_2.index ⟨47, h47⟩ a * main_v2.ty.shape.size a) = fun _ => 0 := funext fun a => by fin_cases a <;> decide +kernel
  exact (Memref.read_access_unit_zero (Elt F) main_v2 hz' (fun a => by rw [congrFun hz' a]; simp) (result m c)).symm

/-- So the result array ends at the result: the last point's block covers it. -/
theorem final_result (c : Dev nD) : (dats m 0 c).arrAt 2 cfg0.N = result m c :=
  (dats m 0 c).arrAt_eq_of_cover 2 (result m c) (flushed_eq m c) fun i =>
    ⟨⟨47, h47⟩, (flush0_2 ⟨47, h47⟩).mpr rfl, by
      show i ∈ ((View.whole main_v2).slice (win0_2.rect ⟨47, h47⟩)).set
      rw [View.set_slice_whole, Rect.mem_set_unit]
      intro a
      have h0 : (i 0 : Nat) < 1 := (i 0).isLt
      have h1 : (i 1 : Nat) < 1 := (i 1).isLt
      match a with
      | ⟨0, _⟩ => show win0_2.index ⟨47, h47⟩ 0 * win0_2.size 0 ≤ (i 0 : Nat) ∧ (i 0 : Nat) < win0_2.index ⟨47, h47⟩ 0 * win0_2.size 0 + win0_2.xsize (grid0.coords ⟨47, h47⟩) 0
                  rw [show win0_2.index ⟨47, h47⟩ 0 * win0_2.size 0 = 0 from by decide +kernel, show win0_2.xsize (grid0.coords ⟨47, h47⟩) 0 = 1 from by decide +kernel]; omega
      | ⟨1, _⟩ => show win0_2.index ⟨47, h47⟩ 1 * win0_2.size 1 ≤ (i 1 : Nat) ∧ (i 1 : Nat) < win0_2.index ⟨47, h47⟩ 1 * win0_2.size 1 + win0_2.xsize (grid0.coords ⟨47, h47⟩) 1
                  rw [show win0_2.index ⟨47, h47⟩ 1 * win0_2.size 1 = 0 from by decide +kernel, show win0_2.xsize (grid0.coords ⟨47, h47⟩) 1 = 1 from by decide +kernel]; omega⟩

/-- The returned scalar: the constant one times the scalar read of the result. -/
abbrev returned (c : Dev nD) : FVec F S_ .f32 :=
  mulf (constant (F := F) S_ .f32 0x3F800000#32) (shapeCast S_ (result m c) shapeCasts_S1x1_S_)

/-- The host lines after the region leave it in the returned buffer. -/
theorem tail_eq_returned (c : Dev nD) :
    Pipeline.afterTail₀ cfgs (dats m) 0 (V0 m) [hostOps1] c main_v4 = returned m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2) = result m c :=
    (Pipeline.withArrays_arr spec0 launch0.win.arr_inj c _ _ 2).trans (final_result m c)
  rw [e]
  rfl

/-- The run, read: every weakly fair execution terminates with the returned scalar in place and the arguments as launched. -/
theorem run : θ_run defs (onTc (τ := τ) (main (F := F))) ⟨m, fun _ => 0, ρ⟩ fun r => ∀ c : Dev nD,
      r.2.mem ((c.tc : Thread nD τ).loc main_v4) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq_returned m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Run

end
-- ==== Proof.HaarSpec.lean ====
/-
  The mathematics both programs are read against, over the reals.

  An IMAGE is a 512 × 512 array of reals, rows by lanes. Its level-1 Haar transform splits it into 2 × 2 blocks: block
  (j, k) holds a = x(2j, 2k), b = x(2j, 2k+1), c = x(2j+1, 2k), d = x(2j+1, 2k+1), and its four subband coefficients are
  ½(a+b+c+d), ½(a+b−c−d), ½(a−b+c−d), ½(a−b−c+d) (`coef`). The loss is the sum, over every image of the batch, every
  subband and every block, of |coef(pred) − coef(target)|, divided by the number of coefficients.

  The kernel never forms the blocks: it works on the difference image u = pred − target, adds and subtracts its cyclic
  right neighbour (s, m), then their cyclic lower neighbours, takes ½ of the four absolute values at EVERY position and
  keeps only the positions with even row and even lane (`kterm`) — exactly the top-left corners of the 2 × 2 blocks, where
  the neighbours are the block's other three entries and no wrap-around happens.
-/
import Idealize.ShloMosaic.Lib.ValueIdx

noncomputable section

open scoped BigOperators

namespace Cert.Haar

open Idealize.ShloMosaic Idealize.ShloMosaic.ValueIdx

/-- One image: rows × lanes. -/
abbrev Img := Fin 512 → Fin 512 → ℝ

/-- A batch of 16 × 6 images. -/
abbrev Batch := (⟨4, ![16, 6, 512, 512]⟩ : Shape).Idx → ℝ

/-- Image (b, c) of a batch. -/
def sub (X : Batch) (b : Fin 16) (c : Fin 6) : Img := fun r l => X (ix4 b c r l)

/-- The next row or lane, cyclically (what a rotation by 511 of 512 reads). -/
def nxt (r : Fin 512) : Fin 512 := ⟨(r.val + 1) % 512, Nat.mod_lt _ (by norm_num)⟩

/-- The even position `2j` and the odd position `2j + 1` of block `j`. -/
def evn (j : Fin 256) : Fin 512 := ⟨2 * j.val, by have := j.isLt; omega⟩
def odd (j : Fin 256) : Fin 512 := ⟨2 * j.val + 1, by have := j.isLt; omega⟩

/-- The difference image plus, and minus, its cyclic right neighbour. -/
def hs (p t : Img) (r l : Fin 512) : ℝ := (p r l - t r l) + (p r (nxt l) - t r (nxt l))
def hm (p t : Img) (r l : Fin 512) : ℝ := (p r l - t r l) - (p r (nxt l) - t r (nxt l))

/-- What the kernel sums at position (r, l): half the four absolute values where row and lane are even, zero elsewhere. -/
def kterm (p t : Img) (r l : Fin 512) : ℝ :=
  if l.val % 2 = 0 ∧ r.val % 2 = 0 then
    1 / 2 * (|hs p t r l + hs p t (nxt r) l| + |hs p t r l - hs p t (nxt r) l|
      + |hm p t r l + hm p t (nxt r) l| + |hm p t r l - hm p t (nxt r) l|)
  else 0

/-- Subband `q` (LL, LH, HL, HH) of image `x` at block (j, k), with the reference's own order of additions. -/
def coef (x : Img) (q : Fin 4) (j k : Fin 256) : ℝ :=
  match q with
  | 0 => 1 / 2 * (x (evn j) (evn k) + x (evn j) (odd k) + x (odd j) (evn k) + x (odd j) (odd k))
  | 1 => 1 / 2 * (x (evn j) (evn k) + x (evn j) (odd k) - x (odd j) (evn k) - x (odd j) (odd k))
  | 2 => 1 / 2 * (x (evn j) (evn k) - x (evn j) (odd k) + x (odd j) (evn k) - x (odd j) (odd k))
  | 3 => 1 / 2 * (x (evn j) (evn k) - x (evn j) (odd k) - x (odd j) (evn k) + x (odd j) (odd k))

/-- The L1 distance of two images' Haar transforms, as the reference sums it. -/
def refImage (p t : Img) : ℝ := ∑ q : Fin 4, ∑ j : Fin 256, ∑ k : Fin 256, |coef p q j k - coef t q j k|

/-- The same as the kernel sums it. -/
def kerImage (p t : Img) : ℝ := ∑ r : Fin 512, ∑ l : Fin 512, kterm p t r l

/-- A rank-5 index set is the product of its coordinate ranges, so a sum over it is the iterated sum. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Haar

end
-- ==== Proof.Consts.lean ====
/-
  The float literals the two programs spell, as the extended reals their bit patterns denote: zero, one half (the
  Haar normalisation), one (the loss weight) and 25165824 = 16 · 6 · 4 · 256 · 256, the number of wavelet
  coefficients the reference's mean divides by.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `0.5` denotes the real `1/2`. -/
theorem ofBits_half : Ideal.ofBits .f32 0x3F000000#32 = ((1 / 2 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- `25165824.0` denotes the real `25165824`. -/
theorem ofBits_count : Ideal.ofBits .f32 0x4BC00000#32 = ((25165824 : ℝ) : EReal) := by
  simp [Ideal.ofBits, Ideal.ieee, -EReal.coe_mul]; norm_num

end Cert.Consts

end
-- ==== Proof.KernelPoint.lean ====
/-
  One grid point of the kernel, read at the reals. The body loads a block of two images of pred and of target, forms
  the difference, adds and subtracts its cyclic right neighbour, then the cyclic lower neighbours of those, takes half
  the four absolute values, keeps the positions with even lane and even row, and sums: first over lanes (`k0_pay4`), then
  over rows and over the two images, onto what the scratch cell held (`k0_pay1`). With the blocks the coercions of real
  images the lane sum at (g, r) is the coerced sum over lanes of `Cert.Haar.kterm`; the last point multiplies the
  total by the named constant, which denotes 1/25165824 (`k0_pay2`); the first point starts from zero (`k0_pay3`).
-/
import proofs.«418155_j79113297592488_3_alg».proof.Proof.Gen.KernelIdeal.Skeleton
import proofs.«418155_j79113297592488_3_alg».proof.Proof.HaarSpec
import proofs.«418155_j79113297592488_3_alg».proof.Proof.Consts
import Idealize.ShloMosaic.Lib.ValueIdx
import Idealize.ShloMosaic.Lib.Pipeline.Value
import Idealize.ShloMosaic.Lib.KernelVsHost
import Idealize.ShloMosaic.PureOps.Ideal.Laws
import Idealize.ShloMosaic.PureOps.IdealRules

noncomputable section

open scoped BigOperators

namespace Cert.KernelIdeal.Point

open Idealize.ShloMosaic Idealize.ShloMosaic.ValueIdx Cert.KernelIdeal Cert.KernelIdeal.Gen Cert.Haar

/-- The parity test the mask makes of a lane or row number: `(n & 1) == 0`. -/
theorem even_bit : ∀ l : Fin 512, IntOp.cmpi .eq (IntOp.andi (BitVec.ofNat 32 l.val) 1#32) 0#32 = if l.val % 2 = 0 then 1#1 else 0#1 := by
  decide +kernel

/-- The absolute value of a real, read in the extended reals. -/
theorem absf_coe (x : ℝ) : FloatOps.absf (F := Ideal) (φ := .f32) ((x : ℝ) : EReal) = ((|x| : ℝ) : EReal) := by
  show max (x : EReal) (-(x : EReal)) = _
  rw [← EReal.coe_neg, abs_eq_max_neg]
  exact (EReal.coe_strictMono.monotone.map_max).symm

/-- A rotation by 511 of 512 along the lanes reads the next lane, cyclically; -/
theorem rot2 (x : S2x512x512.Idx → EReal) (g : Fin 2) (r l : Fin 512) :
    dynamicRotate 2 511#32 none x rotates_S2x512x512_d2 (ix3 g r l) = x (ix3 g r (nxt l)) := by
  refine dynamicRotate_apply _ _ _ _ _ _ (fun b => ?_)
  match b with
  | ⟨0, _⟩ => rfl
  | ⟨1, _⟩ => rfl
  | ⟨2, _⟩ => show (nxt l).val = _; simp [nxt]

/-- along the rows, the next row. -/
theorem rot1 (x : S2x512x512.Idx → EReal) (g : Fin 2) (r l : Fin 512) :
    dynamicRotate 1 511#32 none x rotates_S2x512x512_d1 (ix3 g r l) = x (ix3 g (nxt r) l) := by
  refine dynamicRotate_apply _ _ _ _ _ _ (fun b => ?_)
  match b with
  | ⟨0, _⟩ => rfl
  | ⟨1, _⟩ => show (nxt r).val = _; simp [nxt]
  | ⟨2, _⟩ => rfl

/-- A sum over ONE axis from the zero word, read at an index: the sum over that axis's coordinates. -/
theorem axis_sum {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- A block of two real images, read in the extended reals. -/
def blk (p : Fin 2 → Img) : Vec Ideal S2x512x512 .f32 := fun i => ((p (i 0) (i 1) (i 2) : ℝ) : EReal)

/-- The difference block, and its sum and difference with the cyclic right neighbour, as the payload spells them. -/
def dif (p t : Fin 2 → Img) : FVec Ideal S2x512x512 .f32 :=
  subf (shapeCast S2x512x512 (blk p) shapeCasts_S2x512x512_S2x512x512) (shapeCast S2x512x512 (blk t) shapeCasts_S2x512x512_S2x512x512)
def vs (p t : Fin 2 → Img) : FVec Ideal S2x512x512 .f32 := addf (dif p t) (dynamicRotate 2 511#32 none (dif p t) rotates_S2x512x512_d2)
def vm (p t : Fin 2 → Img) : FVec Ideal S2x512x512 .f32 := subf (dif p t) (dynamicRotate 2 511#32 none (dif p t) rotates_S2x512x512_d2)

theorem dif_apply (p t : Fin 2 → Img) (g : Fin 2) (r l : Fin 512) : dif p t (ix3 g r l) = ((p g r l - t g r l : ℝ) : EReal) := by
  unfold dif
  rw [shapeCast_self, shapeCast_self]
  show ((p g r l : ℝ) : EReal) - ((t g r l : ℝ) : EReal) = _
  rw [EReal.coe_sub]

theorem vs_apply (p t : Fin 2 → Img) (g : Fin 2) (r l : Fin 512) : vs p t (ix3 g r l) = ((hs (p g) (t g) r l : ℝ) : EReal) := by
  show dif p t (ix3 g r l) + dynamicRotate 2 511#32 none (dif p t) rotates_S2x512x512_d2 (ix3 g r l) = _
  rw [rot2, dif_apply, dif_apply, ← EReal.coe_add]; rfl

theorem vm_apply (p t : Fin 2 → Img) (g : Fin 2) (r l : Fin 512) : vm p t (ix3 g r l) = ((hm (p g) (t g) r l : ℝ) : EReal) := by
  show dif p t (ix3 g r l) - dynamicRotate 2 511#32 none (dif p t) rotates_S2x512x512_d2 (ix3 g r l) = _
  rw [rot2, dif_apply, dif_apply, ← EReal.coe_sub]; rfl

/-- The lane sums: at image g, row r, the sum over the lanes of the masked term. -/
theorem pay4_apply (p t : Fin 2 → Img) (g : Fin 2) (r : Fin 512) :
    k0_pay4 (F := Ideal) (blk p) (blk t) (ix2 g r) = ((∑ l : Fin 512, kterm (p g) (t g) r l : ℝ) : EReal) := by
  unfold k0_pay4
  dsimp only
  refine (axis_sum _ _ _ _ _).trans ?_
  rw [coe_sum]
  refine Finset.sum_congr rfl fun (l : Fin 512) _ => ?_
  have hi : reduces_S2x512x512_S2x512.lift (ix2 g r) l = ix3 g r l := by
    funext a; match a with | ⟨0, _⟩ => rfl | ⟨1, _⟩ => rfl | ⟨2, _⟩ => rfl
  rw [hi]
  have hl : iota Kind.tc S2x512x512 32 [2] iota_S2x512x512_d2_w32 (ix3 g r l) = BitVec.ofNat 32 l.val := iota_single_apply _ _ _ _ _ _
  have hr : iota Kind.tc S2x512x512 32 [1] iota_S2x512x512_d1_w32 (ix3 g r l) = BitVec.ofNat 32 r.val := iota_single_apply _ _ _ _ _ _
  show Scalar.select
      (IntOp.andi (IntOp.cmpi .eq (IntOp.andi (iota Kind.tc S2x512x512 32 [2] iota_S2x512x512_d2_w32 (ix3 g r l)) 1#32) 0#32)
        (IntOp.cmpi .eq (IntOp.andi (iota Kind.tc S2x512x512 32 [1] iota_S2x512x512_d1_w32 (ix3 g r l)) 1#32) 0#32))
      (Ideal.ofBits .f32 0x3F000000#32 *
        (((FloatOps.absf (vs p t (ix3 g r l) + dynamicRotate 1 511#32 none (vs p t) rotates_S2x512x512_d1 (ix3 g r l))
          + FloatOps.absf (vs p t (ix3 g r l) - dynamicRotate 1 511#32 none (vs p t) rotates_S2x512x512_d1 (ix3 g r l)))
          + FloatOps.absf (vm p t (ix3 g r l) + dynamicRotate 1 511#32 none (vm p t) rotates_S2x512x512_d1 (ix3 g r l)))
          + FloatOps.absf (vm p t (ix3 g r l) - dynamicRotate 1 511#32 none (vm p t) rotates_S2x512x512_d1 (ix3 g r l))))
      (Ideal.ofBits .f32 0x00000000#32) = _
  rw [hl, hr, even_bit l, even_bit r, rot1, rot1, vs_apply, vs_apply, vm_apply, vm_apply,
    ← EReal.coe_add, ← EReal.coe_sub, ← EReal.coe_add, ← EReal.coe_sub, absf_coe, absf_coe, absf_coe, absf_coe,
    ← EReal.coe_add, ← EReal.coe_add, ← EReal.coe_add, Cert.Consts.ofBits_half, ← EReal.coe_mul, Cert.Consts.ofBits_zero]
  unfold kterm Scalar.select
  by_cases h1 : l.val % 2 = 0 <;> by_cases h2 : r.val % 2 = 0 <;> simp [h1, h2, IntOp.andi]

/-- The update of the scratch cell: what it held plus the sum of the lane sums over the two images and their rows. -/
theorem pay1_apply (v39 : FVec Ideal S2x512 .f32) (acc : Vec Ideal S1x1 .f32) (j : S1x1.Idx) :
    k0_pay1 (F := Ideal) v39 acc j = acc j + ∑ g : Fin 2, ∑ r : Fin 512, v39 (ix2 g r) := by
  unfold k0_pay1
  dsimp only
  rw [shapeCast_self, shapeCast_shapeCast]
  show acc j + _ = _
  congr 1
  refine (axis_sum _ _ _ _ _).trans ?_
  refine Finset.sum_congr rfl fun (g : Fin 2) _ => ?_
  refine (shapeCast_apply _ _ _ (ix2 g (0 : Fin 1)) ?_).trans ?_
  · rw [Shape.rowMajor_val_two, Shape.rowMajor_val_three]
    have h1 : (j 0).val < 1 := (j 0).isLt
    have h2 : (j 1).val < 1 := (j 1).isLt
    show g.val * 1 + 0 = (g.val * 1 + (j 0).val) * 1 + (j 1).val
    omega
  refine (axis_sum _ _ _ _ _).trans ?_
  refine Finset.sum_congr rfl fun (r : Fin 512) _ => ?_
  refine (shapeCast_apply _ _ _ (ix2 g r) ?_)
  rw [Shape.rowMajor_val_two, Shape.rowMajor_val_three]
  show g.val * 512 + r.val = (g.val * 512 + r.val) * 1 + 0
  omega

/-- The sum over a block of two real images, in the reals: both images' kernel sums. -/
theorem point_sum (p t : Fin 2 → Img) (acc : Vec Ideal S1x1 .f32) (j : S1x1.Idx) :
    k0_pay1 (F := Ideal) (k0_pay4 (blk p) (blk t)) acc j = acc j + ((∑ g : Fin 2, kerImage (p g) (t g) : ℝ) : EReal) := by
  rw [pay1_apply, coe_sum]
  refine congrArg (acc j + ·) ?_
  refine Finset.sum_congr rfl fun g _ => ?_
  unfold kerImage
  rw [coe_sum]
  exact Finset.sum_congr rfl fun r _ => pay4_apply p t g r

/-- The reset value is zero. -/
theorem pay3_apply (j : S1x1.Idx) : k0_pay3 (F := Ideal) j = 0 := by
  unfold k0_pay3
  rw [shapeCast_self]
  exact Cert.Consts.ofBits_zero

/-- The named constant denotes the rational 1/25165824, by the certificate's table. -/
theorem inv_count : Named.named (F := Ideal) κ "fold_inv_25165824" (φ := .f32) 0x332AAAAB#32 = ((1 / 25165824 : ℝ) : EReal) :=
  IdealRules.named_const.ideal_named_scalar _ _ _ _ rfl

/-- The last point's store: the total times 1/25165824. -/
theorem pay2_apply (v : Vec Ideal S1x1 .f32) (j : S1x1.Idx) :
    k0_pay2 (F := Ideal) v j = v j * ((1 / 25165824 : ℝ) : EReal) := by
  unfold k0_pay2
  show v j * Named.named (F := Ideal) κ "fold_inv_25165824" (φ := .f32) 0x332AAAAB#32 = _
  rw [inv_count]

end Cert.KernelIdeal.Point

end
-- ==== Proof.HaarImage.lean ====
/-
  The kernel's sum over one image equals the reference's.

  The kernel's term vanishes unless row and lane are both even, so the double sum over the 512 × 512 positions is a double
  sum over the 256 × 256 blocks, read at each block's top-left corner (2j, 2k). There the cyclic neighbours are the
  block's other three entries (2j + 1 < 512: no wrap-around), and with A, B, C, D the block of the difference image the
  four absolute values are |(A+B)+(C+D)|, |(A+B)−(C+D)|, |(A−B)+(C−D)|, |(A−B)−(C−D)|. Each subband difference
  coef(pred) − coef(target) is ½ of one of these four combinations, and |½ y| = ½ |y|, so half the sum of the four
  absolute values is the sum over the four subbands. Exchanging the order of summation puts the subband index outside.
-/
import proofs.«418155_j79113297592488_3_alg».proof.Proof.HaarSpec
import Mathlib.Algebra.BigOperators.Fin
import Mathlib.Algebra.Order.Ring.Abs
import Mathlib.Tactic.Ring
import Mathlib.Tactic.NormNum

noncomputable section

open scoped BigOperators

namespace Cert.Haar

/-- The cyclic successor of an even position is the odd position of the same block: no wrap-around. -/
theorem nxt_evn (j : Fin 256) : nxt (evn j) = odd j := by
  apply Fin.ext
  have hj := j.isLt
  show (2 * j.val + 1) % 512 = 2 * j.val + 1
  exact Nat.mod_eq_of_lt (by omega)

/-- A sum over the 512 positions that keeps only the even ones is the sum over the 256 blocks:
    j ↦ 2j is a bijection from the blocks onto the even positions, with inverse r ↦ r / 2. -/
theorem sum_even (G : Fin 512 → ℝ) :
    ∑ r : Fin 512, (if r.val % 2 = 0 then G r else 0) = ∑ j : Fin 256, G (evn j) := by
  rw [← Finset.sum_filter]
  symm
  refine Finset.sum_bij (fun j _ => evn j) ?_ ?_ ?_ ?_
  · intro j _
    rw [Finset.mem_filter]
    refine ⟨Finset.mem_univ _, ?_⟩
    show (2 * j.val) % 2 = 0
    omega
  · intro a _ b _ h
    have h' : 2 * a.val = 2 * b.val := congrArg Fin.val h
    apply Fin.ext
    omega
  · intro r hr
    rw [Finset.mem_filter] at hr
    have hr2 := hr.2
    have hlt := r.isLt
    refine ⟨⟨r.val / 2, by omega⟩, Finset.mem_univ _, ?_⟩
    apply Fin.ext
    show 2 * (r.val / 2) = r.val
    omega
  · intro j _
    rfl

/-- The absolute value of a half is half the absolute value. -/
theorem abs_half {x y : ℝ} (h : x = 1 / 2 * y) : |x| = 1 / 2 * |y| := by
  rw [h, abs_mul, abs_of_nonneg (by norm_num : (0 : ℝ) ≤ 1 / 2)]

/-- At the top-left corner of block (j, k) the kernel's term is the sum of the block's four subband distances. -/
theorem block_eq (p t : Img) (j k : Fin 256) :
    1 / 2 * (|hs p t (evn j) (evn k) + hs p t (nxt (evn j)) (evn k)|
        + |hs p t (evn j) (evn k) - hs p t (nxt (evn j)) (evn k)|
        + |hm p t (evn j) (evn k) + hm p t (nxt (evn j)) (evn k)|
        + |hm p t (evn j) (evn k) - hm p t (nxt (evn j)) (evn k)|)
      = ∑ q : Fin 4, |coef p q j k - coef t q j k| := by
  -- each subband difference is half of one of the four sign combinations
  have h0 : coef p 0 j k - coef t 0 j k
      = 1 / 2 * (hs p t (evn j) (evn k) + hs p t (nxt (evn j)) (evn k)) := by
    simp only [coef, hs, nxt_evn]; ring
  have h1 : coef p 1 j k - coef t 1 j k
      = 1 / 2 * (hs p t (evn j) (evn k) - hs p t (nxt (evn j)) (evn k)) := by
    simp only [coef, hs, nxt_evn]; ring
  have h2 : coef p 2 j k - coef t 2 j k
      = 1 / 2 * (hm p t (evn j) (evn k) + hm p t (nxt (evn j)) (evn k)) := by
    simp only [coef, hm, nxt_evn]; ring
  have h3 : coef p 3 j k - coef t 3 j k
      = 1 / 2 * (hm p t (evn j) (evn k) - hm p t (nxt (evn j)) (evn k)) := by
    simp only [coef, hm, nxt_evn]; ring
  rw [Fin.sum_univ_four, abs_half h0, abs_half h1, abs_half h2, abs_half h3]
  ring

/-- The kernel's sum over an image is the L1 distance of the two Haar transforms. -/
theorem kerImage_eq_refImage (p t : Img) : kerImage p t = refImage p t := by
  unfold kerImage refImage
  -- a row contributes only if it is even, and then only through its even lanes
  have hrow : ∀ r : Fin 512, ∑ l : Fin 512, kterm p t r l
      = if r.val % 2 = 0 then
          ∑ l : Fin 512, (if l.val % 2 = 0 then
            1 / 2 * (|hs p t r l + hs p t (nxt r) l| + |hs p t r l - hs p t (nxt r) l|
              + |hm p t r l + hm p t (nxt r) l| + |hm p t r l - hm p t (nxt r) l|) else 0)
        else 0 := by
    intro r
    by_cases hr : r.val % 2 = 0
    · rw [if_pos hr]
      refine Finset.sum_congr rfl (fun l _ => ?_)
      unfold kterm
      by_cases hl : l.val % 2 = 0
      · rw [if_pos ⟨hl, hr⟩, if_pos hl]
      · rw [if_neg (fun h => hl h.1), if_neg hl]
    · rw [if_neg hr]
      refine Finset.sum_eq_zero (fun l _ => ?_)
      unfold kterm
      rw [if_neg (fun h => hr h.2)]
  rw [Finset.sum_congr rfl (fun r _ => hrow r)]
  -- the even rows are the rows 2j
  rw [sum_even (fun r => ∑ l : Fin 512, (if l.val % 2 = 0 then
            1 / 2 * (|hs p t r l + hs p t (nxt r) l| + |hs p t r l - hs p t (nxt r) l|
              + |hm p t r l + hm p t (nxt r) l| + |hm p t r l - hm p t (nxt r) l|) else 0))]
  -- in row 2j the even lanes are the lanes 2k, and the term there is the block's four subband distances
  have hblk : ∀ j : Fin 256, ∑ l : Fin 512, (if l.val % 2 = 0 then
            1 / 2 * (|hs p t (evn j) l + hs p t (nxt (evn j)) l| + |hs p t (evn j) l - hs p t (nxt (evn j)) l|
              + |hm p t (evn j) l + hm p t (nxt (evn j)) l| + |hm p t (evn j) l - hm p t (nxt (evn j)) l|) else 0)
      = ∑ k : Fin 256, ∑ q : Fin 4, |coef p q j k - coef t q j k| := by
    intro j
    rw [sum_even (fun l => 1 / 2 * (|hs p t (evn j) l + hs p t (nxt (evn j)) l| + |hs p t (evn j) l - hs p t (nxt (evn j)) l|
              + |hm p t (evn j) l + hm p t (nxt (evn j)) l| + |hm p t (evn j) l - hm p t (nxt (evn j)) l|))]
    exact Finset.sum_congr rfl (fun k _ => block_eq p t j k)
  rw [Finset.sum_congr rfl (fun j _ => hblk j)]
  -- bring the subband index outside: first past the lane blocks, then past the row blocks
  refine (Finset.sum_congr rfl (fun j _ => Finset.sum_comm)).trans ?_
  exact Finset.sum_comm

end Cert.Haar

end
-- ==== Proof.HaarBatch.lean ====
/-
  The two walks through the batch.

  The kernel visits the 96 images two per grid point (point i holds images 2i and 2i + 1); the reference visits them as
  16 × 6, image (b, c) being number 6b + c. Both are the sum over n < 96 of image n's sum: a sum over the first k·m
  naturals splits into m consecutive blocks of k, used once with k = 2 and once with k = 6. Image by image the kernel's
  sum equals the reference's.
-/
import proofs.«418155_j79113297592488_3_alg».proof.Proof.HaarImage
import Mathlib.Algebra.BigOperators.Fin
import Mathlib.Tactic.NormNum

noncomputable section

open scoped BigOperators

namespace Cert.Haar

/-- Image number n of a batch, counting the 16 × 6 images row-major: image (6b + c) is image (b, c). -/
def image (X : Batch) (n : ℕ) : Img := sub X ⟨n / 6 % 16, Nat.mod_lt _ (by norm_num)⟩ ⟨n % 6, Nat.mod_lt _ (by norm_num)⟩

/-- Image 6b + c, counted row-major, is image (b, c): (6b + c) / 6 = b and (6b + c) mod 6 = c for c < 6. -/
theorem image_mk (X : Batch) (b : Fin 16) (c : Fin 6) : image X (6 * b.val + c.val) = sub X b c := by
  have hb : (⟨(6 * b.val + c.val) / 6 % 16, Nat.mod_lt _ (by norm_num)⟩ : Fin 16) = b := by
    apply Fin.ext
    have h1 := b.isLt
    have h2 := c.isLt
    show (6 * b.val + c.val) / 6 % 16 = b.val
    omega
  have hc : (⟨(6 * b.val + c.val) % 6, Nat.mod_lt _ (by norm_num)⟩ : Fin 6) = c := by
    apply Fin.ext
    have h2 := c.isLt
    show (6 * b.val + c.val) % 6 = c.val
    omega
  unfold image
  rw [hb, hc]

/-- A sum over the first k·m naturals, cut into m consecutive blocks of k. -/
theorem sum_blocks (f : ℕ → ℝ) (k m : ℕ) :
    ∑ b ∈ Finset.range m, ∑ c ∈ Finset.range k, f (k * b + c) = ∑ n ∈ Finset.range (k * m), f n := by
  induction m with
  | zero => simp
  | succ m ih =>
    rw [Finset.sum_range_succ, ih, Nat.mul_succ, Finset.sum_range_add]

/-- The kernel's walk (two images per grid point) and the reference's (16 × 6) both go through the 96 images once,
    in the same order, and image by image the two sums agree. -/
theorem batch_sum (P T : Batch) :
    ∑ i ∈ Finset.range 48, ∑ g : Fin 2, kerImage (image P (2 * i + g.val)) (image T (2 * i + g.val))
      = ∑ b : Fin 16, ∑ c : Fin 6, refImage (sub P b c) (sub T b c) := by
  -- the kernel's side: 48 blocks of 2
  have hL : ∑ i ∈ Finset.range 48, ∑ g : Fin 2, kerImage (image P (2 * i + g.val)) (image T (2 * i + g.val))
      = ∑ n ∈ Finset.range 96, kerImage (image P n) (image T n) := by
    have h : ∑ i ∈ Finset.range 48, ∑ g ∈ Finset.range 2, kerImage (image P (2 * i + g)) (image T (2 * i + g))
        = ∑ n ∈ Finset.range 96, kerImage (image P n) (image T n) :=
      sum_blocks (fun n => kerImage (image P n) (image T n)) 2 48
    refine Eq.trans ?_ h
    refine Finset.sum_congr rfl (fun i _ => ?_)
    exact Fin.sum_univ_eq_sum_range (fun g => kerImage (image P (2 * i + g)) (image T (2 * i + g))) 2
  -- the reference's side: 16 blocks of 6, and per image the kernel's sum is the reference's
  have hR : ∑ b : Fin 16, ∑ c : Fin 6, refImage (sub P b c) (sub T b c)
      = ∑ n ∈ Finset.range 96, kerImage (image P n) (image T n) := by
    have h : ∑ b ∈ Finset.range 16, ∑ c ∈ Finset.range 6, kerImage (image P (6 * b + c)) (image T (6 * b + c))
        = ∑ n ∈ Finset.range 96, kerImage (image P n) (image T n) :=
      sum_blocks (fun n => kerImage (image P n) (image T n)) 6 16
    refine Eq.trans ?_ h
    refine Eq.trans ?_ (Fin.sum_univ_eq_sum_range
      (fun b => ∑ c ∈ Finset.range 6, kerImage (image P (6 * b + c)) (image T (6 * b + c))) 16)
    refine Finset.sum_congr rfl (fun b _ => ?_)
    refine Eq.trans ?_ (Fin.sum_univ_eq_sum_range
      (fun c => kerImage (image P (6 * b.val + c)) (image T (6 * b.val + c))) 6)
    refine Finset.sum_congr rfl (fun c _ => ?_)
    rw [image_mk, image_mk, kerImage_eq_refImage]
  rw [hL, hR]

end Cert.Haar

end
-- ==== Proof.KernelValue.lean ====
/-
  The kernel's returned scalar as a real number, when both inputs are batches of reals.
  The host line before the region views a batch [16, 6, 512, 512] as 96 images; the window's block at grid point t is
  images 2t and 2t + 1 (image n of the batch is image (n / 6, n mod 6)). So the running total after point n is the
  coerced sum, over the points up to n, of the two images' kernel sums; the result is that total after the last point
  times 1/25165824, and the returned scalar is one times it.
-/
import proofs.«418155_j79113297592488_3_alg».proof.Proof.KernelRun
import proofs.«418155_j79113297592488_3_alg».proof.Proof.KernelPoint
import proofs.«418155_j79113297592488_3_alg».proof.Proof.HaarBatch

noncomputable section

open scoped BigOperators
open Idealize.ShloMosaic Idealize.ShloMosaic.TcCoe Idealize.SL.Sem Idealize.ShloMosaic.ValueIdx

namespace Cert.KernelIdeal.Reals

open Cert.KernelIdeal Cert.KernelIdeal.Gen Cert.KernelIdeal.Run Cert.KernelIdeal.Point Cert.Haar

variable (m : (ℓ : Loc nD τ sig) → Buf (Elt Ideal) ℓ)

/-- The host lines before the region: pred, and target, viewed as 96 images. -/
theorem V_v0 (c : Dev nD) : (V m c main_v0 : S96x512x512.Idx → EReal)
    = shapeCast S96x512x512 (m ((c.tc : Thread nD τ).loc main_arg0)) shapeCasts_S16x6x512x512_S96x512x512 := by
  show StableHlo.after hostOps0 (fun b => m (c, b)) (Proc.devRef .tc main_v0) = _
  after_results
  rfl
theorem V_v1 (c : Dev nD) : (V m c main_v1 : S96x512x512.Idx → EReal)
    = shapeCast S96x512x512 (m ((c.tc : Thread nD τ).loc main_arg1)) shapeCasts_S16x6x512x512_S96x512x512 := by
  show StableHlo.after hostOps0 (fun b => m (c, b)) (Proc.devRef .tc main_v1) = _
  after_results
  rfl

/-- The block index of both input windows at point t is (t, 0, 0): decided over the grid. -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Entry (g, r, l) of pred's block at point t is entry (r, l) of image 2t + g: both are the batch at row-major
    position ((2t + g) · 512 + r) · 512 + l. -/
theorem pblk_apply (P : Batch) (c : Dev nD) (hP : m ((c.tc : Thread nD τ).loc main_arg0) = fun i => ((P i : ℝ) : EReal))
    (t : Fin cfg0.N) (g : Fin 2) (r l : Fin 512) :
    pblk m c t (ix3 g r l) = ((image P (2 * t.val + g.val) r l : ℝ) : EReal) := by
  unfold pblk iblk
  rw [View.read_apply]
  show V m c main_v0 _ = _
  rw [V_v0, hP]
  have hN : cfg0.N = 48 := N_0
  have ht := t.isLt
  refine (shapeCast_apply _ _ _ (ix4 (⟨(2 * t.val + g.val) / 6 % 16, Nat.mod_lt _ (by norm_num)⟩ : Fin 16) (⟨(2 * t.val + g.val) % 6, Nat.mod_lt _ (by norm_num)⟩ : Fin 6) r l) ?_).trans ?_
  · rw [Shape.rowMajor_val_four, Shape.rowMajor_val_three]
    obtain ⟨i0, i1, i2⟩ := idx0 t
    have hg := g.isLt
    show ((((2 * t.val + g.val) / 6 % 16) * 6 + (2 * t.val + g.val) % 6) * 512 + r.val) * 512 + l.val
      = ((win0_0.index t 0 * 2 + 1 * g.val) * 512 + (win0_0.index t 1 * 512 + 1 * r.val)) * 512 + (win0_0.index t 2 * 512 + 1 * l.val)
    rw [i0, i1, i2]
    omega
  · rfl

/-- The same for target. -/
theorem tblk_apply (T : Batch) (c : Dev nD) (hT : m ((c.tc : Thread nD τ).loc main_arg1) = fun i => ((T i : ℝ) : EReal))
    (t : Fin cfg0.N) (g : Fin 2) (r l : Fin 512) :
    tblk m c t (ix3 g r l) = ((image T (2 * t.val + g.val) r l : ℝ) : EReal) := by
  unfold tblk iblk
  rw [View.read_apply]
  show V m c main_v1 _ = _
  rw [V_v1, hT]
  have hN : cfg0.N = 48 := N_0
  have ht := t.isLt
  refine (shapeCast_apply _ _ _ (ix4 (⟨(2 * t.val + g.val) / 6 % 16, Nat.mod_lt _ (by norm_num)⟩ : Fin 16) (⟨(2 * t.val + g.val) % 6, Nat.mod_lt _ (by norm_num)⟩ : Fin 6) r l) ?_).trans ?_
  · rw [Shape.rowMajor_val_four, Shape.rowMajor_val_three]
    obtain ⟨i0, i1, i2⟩ := idx1 t
    have hg := g.isLt
    show ((((2 * t.val + g.val) / 6 % 16) * 6 + (2 * t.val + g.val) % 6) * 512 + r.val) * 512 + l.val
      = ((win0_1.index t 0 * 2 + 1 * g.val) * 512 + (win0_1.index t 1 * 512 + 1 * r.val)) * 512 + (win0_1.index t 2 * 512 + 1 * l.val)
    rw [i0, i1, i2]
    omega
  · rfl

/-- So the blocks are the coercions of two real images each. -/
theorem pblk_eq (P : Batch) (c : Dev nD) (hP : m ((c.tc : Thread nD τ).loc main_arg0) = fun i => ((P i : ℝ) : EReal)) (t : Fin cfg0.N) :
    pblk m c t = blk (fun g => image P (2 * t.val + g.val)) := by
  funext y
  obtain ⟨g, r, l, rfl⟩ : ∃ (g : Fin 2) (r l : Fin 512), y = ix3 g r l := ⟨y 0, y 1, y 2, eq_ix3 y⟩
  exact pblk_apply m P c hP t g r l
theorem tblk_eq (T : Batch) (c : Dev nD) (hT : m ((c.tc : Thread nD τ).loc main_arg1) = fun i => ((T i : ℝ) : EReal)) (t : Fin cfg0.N) :
    tblk m c t = blk (fun g => image T (2 * t.val + g.val)) := by
  funext y
  obtain ⟨g, r, l, rfl⟩ : ∃ (g : Fin 2) (r l : Fin 512), y = ix3 g r l := ⟨y 0, y 1, y 2, eq_ix3 y⟩
  exact tblk_apply m T c hT t g r l

/-- The kernel's sum over the two images of grid point i. -/
def pointSum (P T : Batch) (i : ℕ) : ℝ := ∑ g : Fin 2, kerImage (image P (2 * i + g.val)) (image T (2 * i + g.val))

/-- The running total after point n is the coerced sum of the points' sums up to n: by induction on the point. -/
theorem total_apply (P T : Batch) (c : Dev nD)
    (hP : m ((c.tc : Thread nD τ).loc main_arg0) = fun i => ((P i : ℝ) : EReal))
    (hT : m ((c.tc : Thread nD τ).loc main_arg1) = fun i => ((T i : ℝ) : EReal)) :
    ∀ (n : ℕ) (h : n < cfg0.N) (j : S1x1.Idx), total m c n h j = ((∑ i ∈ Finset.range (n + 1), pointSum P T i : ℝ) : EReal)
  | 0, h, j => by
    show k0_pay1 (k0_pay4 (pblk m c ⟨0, h⟩) (tblk m c ⟨0, h⟩)) (k0_pay3 (F := Ideal)) j = _
    rw [pblk_eq m P c hP, tblk_eq m T c hT, point_sum, pay3_apply, zero_add, Finset.sum_range_one]
    rfl
  | n + 1, h, j => by
    show k0_pay1 (k0_pay4 (pblk m c ⟨n + 1, h⟩) (tblk m c ⟨n + 1, h⟩)) (total m c n (Nat.lt_of_succ_lt h)) j = _
    rw [pblk_eq m P c hP, tblk_eq m T c hT, point_sum, total_apply P T c hP hT n, ← EReal.coe_add, Finset.sum_range_succ _ (n + 1)]
    rfl

/-- The returned scalar: the sum over the 48 points of the points' sums, times 1/25165824. -/
theorem returned_apply (P T : Batch) (c : Dev nD)
    (hP : m ((c.tc : Thread nD τ).loc main_arg0) = fun i => ((P i : ℝ) : EReal))
    (hT : m ((c.tc : Thread nD τ).loc main_arg1) = fun i => ((T i : ℝ) : EReal)) (j : S_.Idx) :
    returned m c j = (((∑ i ∈ Finset.range 48, pointSum P T i) * (1 / 25165824) : ℝ) : EReal) := by
  show Ideal.ofBits .f32 0x3F800000#32 * shapeCast S_ (result m c) shapeCasts_S1x1_S_ j = _
  rw [Cert.Consts.ofBits_one, one_mul]
  refine (shapeCast_apply _ _ _ (ix2 (0 : Fin 1) (0 : Fin 1)) ?_).trans ?_
  · rw [Shape.rowMajor_val_two]
    have h : (S_.rowMajor j).val < 1 := lt_of_lt_of_eq (S_.rowMajor j).isLt (by decide)
    show 0 * 1 + 0 = (S_.rowMajor j).val
    omega
  · show k0_pay2 (total m c 47 h47) (ix2 (0 : Fin 1) (0 : Fin 1)) = _
    rw [pay2_apply, total_apply m P T c hP hT 47 h47, ← EReal.coe_mul]

end Cert.KernelIdeal.Reals

end
-- ==== Proof.RefRead.lean ====
/-
  The reference program read at the reals.

  The reference reshapes each 512 × 512 image into 256 × 2 × 256 × 2, slices out the four corners of every 2 × 2 block
  (a = (2j, 2k), b = (2j, 2k+1), c = (2j+1, 2k), d = (2j+1, 2k+1)), forms the four Haar subbands ½(a±b±c±d), stacks them
  on a new axis, does the same for the target, and takes the mean of the absolute differences. Read at inputs that are
  reals, every intermediate value is a real, so the result is the real number
  (∑ over images of the L1 distance of the two Haar transforms) / 25165824.
-/
import proofs.«418155_j79113297592488_3_alg».proof.Proof.Gen.ReferenceIdeal.Read
import proofs.«418155_j79113297592488_3_alg».proof.Proof.HaarSpec
import proofs.«418155_j79113297592488_3_alg».proof.Proof.Consts
import Idealize.ShloMosaic.Lib.ValueIdxRank6

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Haar

/-! ## The four corners of a 2 × 2 block

A reshape keeps the row-major position. Position ((b·6 + c)·512 + r)·512 + l of the 16 × 6 × 512 × 512 array is
position ((((b·6 + c)·256 + j)·2 + u)·256 + k)·2 + v of the 16 × 6 × 256 × 2 × 256 × 2 array exactly when r = 2j + u and
l = 2k + v; the slice fixes (u, v) and the second reshape drops the two unit axes. -/

section Corners
variable {F : FTy → Type} [FloatOps F]

/-- The first reshape read at (b, c, j, u, k, v): the image at row 2j + u, lane 2k + v. -/
theorem v0_apply (x : (⟨S16x6x512x512, .f32⟩ : BufTy).Contents (Elt F)) (b : Fin 16) (c : Fin 6) (j k : Fin 256) (u v : Fin 2)
    (r l : Fin 512) (hr : r.val = 2 * j.val + u.val) (hl : l.val = 2 * k.val + v.val) (i : S16x6x256x2x256x2.Idx)
    (hi : i = ix6 b c j u k v) :
    val_main_v0 (F := F) x i = x (ix4 b c r l) := by
  subst hi
  unfold val_main_v0
  refine shapeCast_apply x _ _ (ix4 b c r l) ?_
  rw [Shape.rowMajor_val_four, Shape.rowMajor_val_six]
  show ((b.val * 6 + c.val) * 512 + r.val) * 512 + l.val
    = ((((b.val * 6 + c.val) * 256 + j.val) * 2 + u.val) * 256 + k.val) * 2 + v.val
  omega

/-- The second reshape (dropping the two unit axes) read at (b, c, j, k). -/
theorem drop_apply (y : (⟨S16x6x256x1x256x1, .f32⟩ : BufTy).Contents (Elt F)) (b : Fin 16) (c : Fin 6) (j k : Fin 256) :
    shapeCast S16x6x256x256 y shapeCasts_S16x6x256x1x256x1_S16x6x256x256 (ix4 b c j k)
      = y (ix6 b c j (0 : Fin 1) k (0 : Fin 1)) := by
  refine shapeCast_apply y _ _ _ ?_
  rw [Shape.rowMajor_val_four, Shape.rowMajor_val_six]
  show ((((b.val * 6 + c.val) * 256 + j.val) * 1 + 0) * 256 + k.val) * 1 + 0
    = ((b.val * 6 + c.val) * 256 + j.val) * 256 + k.val
  omega

/-- Corner a: row 2j, lane 2k. -/
theorem v2_apply (x : (⟨S16x6x512x512, .f32⟩ : BufTy).Contents (Elt F)) (b : Fin 16) (c : Fin 6) (j k : Fin 256) :
    val_main_v2 (F := F) x (ix4 b c j k) = x (ix4 b c (evn j) (evn k)) := by
  unfold val_main_v2
  refine (drop_apply _ b c j k).trans ?_
  refine (val_main_v1_apply x _).trans ?_
  refine v0_apply x b c j k 0 0 (evn j) (evn k) (by show 2 * j.val = 2 * j.val + 0; omega) (by show 2 * k.val = 2 * k.val + 0; omega) _ ?_
  funext a
  match a with
  | ⟨0, _⟩ => rfl
  | ⟨1, _⟩ => rfl
  | ⟨2, _⟩ => rfl
  | ⟨3, _⟩ => rfl
  | ⟨4, _⟩ => rfl
  | ⟨5, _⟩ => rfl

/-- Corner b: row 2j, lane 2k + 1. -/
theorem v4_apply (x : (⟨S16x6x512x512, .f32⟩ : BufTy).Contents (Elt F)) (b : Fin 16) (c : Fin 6) (j k : Fin 256) :
    val_main_v4 (F := F) x (ix4 b c j k) = x (ix4 b c (evn j) (odd k)) := by
  unfold val_main_v4
  refine (drop_apply _ b c j k).trans ?_
  refine (val_main_v3_apply x _).trans ?_
  refine v0_apply x b c j k 0 1 (evn j) (odd k) (by show 2 * j.val = 2 * j.val + 0; omega) (by show 2 * k.val + 1 = 2 * k.val + 1; omega) _ ?_
  funext a
  match a with
  | ⟨0, _⟩ => rfl
  | ⟨1, _⟩ => rfl
  | ⟨2, _⟩ => rfl
  | ⟨3, _⟩ => rfl
  | ⟨4, _⟩ => rfl
  | ⟨5, _⟩ => rfl

/-- Corner c: row 2j + 1, lane 2k. -/
theorem v6_apply (x : (⟨S16x6x512x512, .f32⟩ : BufTy).Contents (Elt F)) (b : Fin 16) (c : Fin 6) (j k : Fin 256) :
    val_main_v6 (F := F) x (ix4 b c j k) = x (ix4 b c (odd j) (evn k)) := by
  unfold val_main_v6
  refine (drop_apply _ b c j k).trans ?_
  refine (val_main_v5_apply x _).trans ?_
  refine v0_apply x b c j k 1 0 (odd j) (evn k) (by show 2 * j.val + 1 = 2 * j.val + 1; omega) (by show 2 * k.val = 2 * k.val + 0; omega) _ ?_
  funext a
  match a with
  | ⟨0, _⟩ => rfl
  | ⟨1, _⟩ => rfl
  | ⟨2, _⟩ => rfl
  | ⟨3, _⟩ => rfl
  | ⟨4, _⟩ => rfl
  | ⟨5, _⟩ => rfl

/-- Corner d: row 2j + 1, lane 2k + 1. -/
theorem v8_apply (x : (⟨S16x6x512x512, .f32⟩ : BufTy).Contents (Elt F)) (b : Fin 16) (c : Fin 6) (j k : Fin 256) :
    val_main_v8 (F := F) x (ix4 b c j k) = x (ix4 b c (odd j) (odd k)) := by
  unfold val_main_v8
  refine (drop_apply _ b c j k).trans ?_
  refine (val_main_v7_apply x _).trans ?_
  refine v0_apply x b c j k 1 1 (odd j) (odd k) (by show 2 * j.val + 1 = 2 * j.val + 1; omega) (by show 2 * k.val + 1 = 2 * k.val + 1; omega) _ ?_
  funext a
  match a with
  | ⟨0, _⟩ => rfl
  | ⟨1, _⟩ => rfl
  | ⟨2, _⟩ => rfl
  | ⟨3, _⟩ => rfl
  | ⟨4, _⟩ => rfl
  | ⟨5, _⟩ => rfl

/-- The target's corners are the same functions of the second argument. -/
theorem v36_apply (x : (⟨S16x6x512x512, .f32⟩ : BufTy).Contents (Elt F)) (b : Fin 16) (c : Fin 6) (j k : Fin 256) :
    val_main_v36 (F := F) x (ix4 b c j k) = x (ix4 b c (evn j) (evn k)) := v2_apply x b c j k
theorem v38_apply (x : (⟨S16x6x512x512, .f32⟩ : BufTy).Contents (Elt F)) (b : Fin 16) (c : Fin 6) (j k : Fin 256) :
    val_main_v38 (F := F) x (ix4 b c j k) = x (ix4 b c (evn j) (odd k)) := v4_apply x b c j k
theorem v40_apply (x : (⟨S16x6x512x512, .f32⟩ : BufTy).Contents (Elt F)) (b : Fin 16) (c : Fin 6) (j k : Fin 256) :
    val_main_v40 (F := F) x (ix4 b c j k) = x (ix4 b c (odd j) (evn k)) := v6_apply x b c j k
theorem v42_apply (x : (⟨S16x6x512x512, .f32⟩ : BufTy).Contents (Elt F)) (b : Fin 16) (c : Fin 6) (j k : Fin 256) :
    val_main_v42 (F := F) x (ix4 b c j k) = x (ix4 b c (odd j) (odd k)) := v8_apply x b c j k

end Corners

/-! ## The four subbands, at inputs that are reals -/

/-- A batch of reals as the program's argument: every entry read in the extended reals. -/
abbrev rd (P : Batch) : (⟨S16x6x512x512, .f32⟩ : BufTy).Contents (Elt Ideal) := fun i => ((P i : ℝ) : EReal)

/-- LL of pred. -/
theorem v13_apply (P : Batch) (b : Fin 16) (c : Fin 6) (j k : Fin 256) :
    val_main_v13 (F := Ideal) (rd P) (ix4 b c j k) = ((coef (sub P b c) 0 j k : ℝ) : EReal) := by
  rw [val_main_v13_apply, val_main_v12_apply, val_main_cst_apply, val_main_v11_apply, val_main_v10_apply,
    val_main_v9_apply, v2_apply, v4_apply, v6_apply, v8_apply, Ideal.ofBits_def, Cert.Consts.ofBits_half]
  simp only [coef, Ideal.mulf_def, Ideal.addf_def, EReal.coe_mul, EReal.coe_add]
  rfl

/-- LH of pred. -/
theorem v18_apply (P : Batch) (b : Fin 16) (c : Fin 6) (j k : Fin 256) :
    val_main_v18 (F := Ideal) (rd P) (ix4 b c j k) = ((coef (sub P b c) 1 j k : ℝ) : EReal) := by
  rw [val_main_v18_apply, val_main_v17_apply, val_main_cst_0_apply, val_main_v16_apply, val_main_v15_apply,
    val_main_v14_apply, v2_apply, v4_apply, v6_apply, v8_apply, Ideal.ofBits_def, Cert.Consts.ofBits_half]
  simp only [coef, Ideal.mulf_def, Ideal.addf_def, Ideal.subf_def, EReal.coe_mul, EReal.coe_add, EReal.coe_sub]
  rfl

/-- HL of pred. -/
theorem v23_apply (P : Batch) (b : Fin 16) (c : Fin 6) (j k : Fin 256) :
    val_main_v23 (F := Ideal) (rd P) (ix4 b c j k) = ((coef (sub P b c) 2 j k : ℝ) : EReal) := by
  rw [val_main_v23_apply, val_main_v22_apply, val_main_cst_1_apply, val_main_v21_apply, val_main_v20_apply,
    val_main_v19_apply, v2_apply, v4_apply, v6_apply, v8_apply, Ideal.ofBits_def, Cert.Consts.ofBits_half]
  simp only [coef, Ideal.mulf_def, Ideal.addf_def, Ideal.subf_def, EReal.coe_mul, EReal.coe_add, EReal.coe_sub]
  rfl

/-- HH of pred. -/
theorem v28_apply (P : Batch) (b : Fin 16) (c : Fin 6) (j k : Fin 256) :
    val_main_v28 (F := Ideal) (rd P) (ix4 b c j k) = ((coef (sub P b c) 3 j k : ℝ) : EReal) := by
  rw [val_main_v28_apply, val_main_v27_apply, val_main_cst_2_apply, val_main_v26_apply, val_main_v25_apply,
    val_main_v24_apply, v2_apply, v4_apply, v6_apply, v8_apply, Ideal.ofBits_def, Cert.Consts.ofBits_half]
  simp only [coef, Ideal.mulf_def, Ideal.addf_def, Ideal.subf_def, EReal.coe_mul, EReal.coe_add, EReal.coe_sub]
  rfl

/-- LL of target. -/
theorem v47_apply (T : Batch) (b : Fin 16) (c : Fin 6) (j k : Fin 256) :
    val_main_v47 (F := Ideal) (rd T) (ix4 b c j k) = ((coef (sub T b c) 0 j k : ℝ) : EReal) := by
  rw [val_main_v47_apply, val_main_v46_apply, val_main_cst_3_apply, val_main_v45_apply, val_main_v44_apply,
    val_main_v43_apply, v36_apply, v38_apply, v40_apply, v42_apply, Ideal.ofBits_def, Cert.Consts.ofBits_half]
  simp only [coef, Ideal.mulf_def, Ideal.addf_def, EReal.coe_mul, EReal.coe_add]
  rfl

/-- LH of target. -/
theorem v52_apply (T : Batch) (b : Fin 16) (c : Fin 6) (j k : Fin 256) :
    val_main_v52 (F := Ideal) (rd T) (ix4 b c j k) = ((coef (sub T b c) 1 j k : ℝ) : EReal) := by
  rw [val_main_v52_apply, val_main_v51_apply, val_main_cst_4_apply, val_main_v50_apply, val_main_v49_apply,
    val_main_v48_apply, v36_apply, v38_apply, v40_apply, v42_apply, Ideal.ofBits_def, Cert.Consts.ofBits_half]
  simp only [coef, Ideal.mulf_def, Ideal.addf_def, Ideal.subf_def, EReal.coe_mul, EReal.coe_add, EReal.coe_sub]
  rfl

/-- HL of target. -/
theorem v57_apply (T : Batch) (b : Fin 16) (c : Fin 6) (j k : Fin 256) :
    val_main_v57 (F := Ideal) (rd T) (ix4 b c j k) = ((coef (sub T b c) 2 j k : ℝ) : EReal) := by
  rw [val_main_v57_apply, val_main_v56_apply, val_main_cst_5_apply, val_main_v55_apply, val_main_v54_apply,
    val_main_v53_apply, v36_apply, v38_apply, v40_apply, v42_apply, Ideal.ofBits_def, Cert.Consts.ofBits_half]
  simp only [coef, Ideal.mulf_def, Ideal.addf_def, Ideal.subf_def, EReal.coe_mul, EReal.coe_add, EReal.coe_sub]
  rfl

/-- HH of target. -/
theorem v62_apply (T : Batch) (b : Fin 16) (c : Fin 6) (j k : Fin 256) :
    val_main_v62 (F := Ideal) (rd T) (ix4 b c j k) = ((coef (sub T b c) 3 j k : ℝ) : EReal) := by
  rw [val_main_v62_apply, val_main_v61_apply, val_main_cst_6_apply, val_main_v60_apply, val_main_v59_apply,
    val_main_v58_apply, v36_apply, v38_apply, v40_apply, v42_apply, Ideal.ofBits_def, Cert.Consts.ofBits_half]
  simp only [coef, Ideal.mulf_def, Ideal.addf_def, Ideal.subf_def, EReal.coe_mul, EReal.coe_add, EReal.coe_sub]
  rfl

/-! ## The stack of the four subbands

The concatenation along the new axis reads, at subband coordinate q, the q-th piece; each piece is a subband array with a
unit axis inserted. -/

/-- Inserting the unit axis: the index (b, c, 0, j, k) reads the subband array at (b, c, j, k). -/
theorem idx_unit (b : Fin 16) (c : Fin 6) (u : Fin 1) (j k : Fin 256) :
    idx_main_v29 (ix5 b c u j k) = ix4 b c j k := by
  funext a
  match a with
  | ⟨0, _⟩ => rfl
  | ⟨1, _⟩ => rfl
  | ⟨2, _⟩ => rfl
  | ⟨3, _⟩ => rfl

/-- The coordinates off the stacking axis of (b, c, 0, j, k) and (b, c, q, j, k) agree. -/
theorem off_axis (b : Fin 16) (c : Fin 6) (q : Fin 4) (j k : Fin 256) (a : Fin 5) (ha : a ≠ 2) :
    ((ix5 b c (0 : Fin 1) j k : S16x6x1x256x256.Idx) a).val = ((ix5 b c q j k : S16x6x4x256x256.Idx) a).val := by
  match a with
  | ⟨0, _⟩ => rfl
  | ⟨1, _⟩ => rfl
  | ⟨2, _⟩ => exact absurd rfl ha
  | ⟨3, _⟩ => rfl
  | ⟨4, _⟩ => rfl

/-- Four arrays with a unit axis, stacked along it, read at (b, c, q, j, k): the q-th array at (b, c, 0, j, k). -/
theorem stack_apply {α : Type} (y0 y1 y2 y3 : S16x6x1x256x256.Idx → α) (b : Fin 16) (c : Fin 6) (q : Fin 4) (j k : Fin 256) :
    concatenate S16x6x4x256x256 2
        [⟨S16x6x1x256x256, y0⟩, ⟨S16x6x1x256x256, y1⟩, ⟨S16x6x1x256x256, y2⟩, ⟨S16x6x1x256x256, y3⟩]
        concatenates_S16x6x1x256x256_S16x6x1x256x256_S16x6x1x256x256_S16x6x1x256x256_S16x6x4x256x256_d2 (ix5 b c q j k)
      = (match q with | 0 => y0 | 1 => y1 | 2 => y2 | 3 => y3) (ix5 b c (0 : Fin 1) j k) := by
  match q with
  | 0 =>
    exact concatenate_apply_piece (t := S16x6x4x256x256) 2
      [⟨S16x6x1x256x256, y0⟩, ⟨S16x6x1x256x256, y1⟩, ⟨S16x6x1x256x256, y2⟩, ⟨S16x6x1x256x256, y3⟩] _ (ix5 b c (0 : Fin 4) j k)
      0 (by show _ < 4; omega) S16x6x1x256x256 y0 rfl rfl 0 rfl (ix5 b c (0 : Fin 1) j k) (fun a ha => off_axis b c 0 j k a ha) rfl
  | 1 =>
    exact concatenate_apply_piece (t := S16x6x4x256x256) 2
      [⟨S16x6x1x256x256, y0⟩, ⟨S16x6x1x256x256, y1⟩, ⟨S16x6x1x256x256, y2⟩, ⟨S16x6x1x256x256, y3⟩] _ (ix5 b c (1 : Fin 4) j k)
      1 (by show _ < 4; omega) S16x6x1x256x256 y1 rfl rfl 1 rfl (ix5 b c (0 : Fin 1) j k) (fun a ha => off_axis b c 1 j k a ha) rfl
  | 2 =>
    exact concatenate_apply_piece (t := S16x6x4x256x256) 2
      [⟨S16x6x1x256x256, y0⟩, ⟨S16x6x1x256x256, y1⟩, ⟨S16x6x1x256x256, y2⟩, ⟨S16x6x1x256x256, y3⟩] _ (ix5 b c (2 : Fin 4) j k)
      2 (by show _ < 4; omega) S16x6x1x256x256 y2 rfl rfl 2 rfl (ix5 b c (0 : Fin 1) j k) (fun a ha => off_axis b c 2 j k a ha) rfl
  | 3 =>
    exact concatenate_apply_piece (t := S16x6x4x256x256) 2
      [⟨S16x6x1x256x256, y0⟩, ⟨S16x6x1x256x256, y1⟩, ⟨S16x6x1x256x256, y2⟩, ⟨S16x6x1x256x256, y3⟩] _ (ix5 b c (3 : Fin 4) j k)
      3 (by show _ < 4; omega) S16x6x1x256x256 y3 rfl rfl 3 rfl (ix5 b c (0 : Fin 1) j k) (fun a ha => off_axis b c 3 j k a ha) rfl

/-- The stack of pred's subbands at (b, c, q, j, k) is subband q at block (j, k). -/
theorem v33_apply (P : Batch) (b : Fin 16) (c : Fin 6) (q : Fin 4) (j k : Fin 256) :
    val_main_v33 (F := Ideal) (rd P) (ix5 b c q j k) = ((coef (sub P b c) q j k : ℝ) : EReal) := by
  unfold val_main_v33
  refine (stack_apply _ _ _ _ b c q j k).trans ?_
  match q with
  | 0 => exact (val_main_v29_apply _ _).trans ((congrArg _ (idx_unit b c 0 j k)).trans (v13_apply P b c j k))
  | 1 => exact (val_main_v30_apply _ _).trans ((congrArg _ (idx_unit b c 0 j k)).trans (v18_apply P b c j k))
  | 2 => exact (val_main_v31_apply _ _).trans ((congrArg _ (idx_unit b c 0 j k)).trans (v23_apply P b c j k))
  | 3 => exact (val_main_v32_apply _ _).trans ((congrArg _ (idx_unit b c 0 j k)).trans (v28_apply P b c j k))

/-- The stack of target's subbands at (b, c, q, j, k) is subband q at block (j, k). -/
theorem v67_apply (T : Batch) (b : Fin 16) (c : Fin 6) (q : Fin 4) (j k : Fin 256) :
    val_main_v67 (F := Ideal) (rd T) (ix5 b c q j k) = ((coef (sub T b c) q j k : ℝ) : EReal) := by
  unfold val_main_v67
  refine (stack_apply _ _ _ _ b c q j k).trans ?_
  match q with
  | 0 => exact (val_main_v63_apply _ _).trans ((congrArg _ (idx_unit b c 0 j k)).trans (v47_apply T b c j k))
  | 1 => exact (val_main_v64_apply _ _).trans ((congrArg _ (idx_unit b c 0 j k)).trans (v52_apply T b c j k))
  | 2 => exact (val_main_v65_apply _ _).trans ((congrArg _ (idx_unit b c 0 j k)).trans (v57_apply T b c j k))
  | 3 => exact (val_main_v66_apply _ _).trans ((congrArg _ (idx_unit b c 0 j k)).trans (v62_apply T b c j k))

/-! ## The mean of the absolute differences -/

/-- The absolute value `max a (-a)` of a real read in the extended reals is the real's absolute value. -/
theorem abs_coe (a : ℝ) : max (a : EReal) (-(a : EReal)) = ((|a| : ℝ) : EReal) := by
  rw [abs_eq_max_neg, EReal.coe_strictMono.monotone.map_max, EReal.coe_neg]

/-- The absolute difference of the two stacks at (b, c, q, j, k). -/
theorem v69_apply (P T : Batch) (b : Fin 16) (c : Fin 6) (q : Fin 4) (j k : Fin 256) :
    val_main_v69 (F := Ideal) (rd P) (rd T) (ix5 b c q j k)
      = ((|coef (sub P b c) q j k - coef (sub T b c) q j k| : ℝ) : EReal) := by
  rw [val_main_v69_apply, val_main_v68_apply, v33_apply, v67_apply, Ideal.hostAbsf_def, Ideal.absf_def, Ideal.subf_def,
    ← EReal.coe_sub]
  exact abs_coe _

/-- The sum of all the absolute differences is the sum over the images of the L1 distance of their transforms. -/
theorem sum_v69 (P T : Batch) :
    (∑ i : S16x6x4x256x256.Idx, val_main_v69 (F := Ideal) (rd P) (rd T) i)
      = ((∑ b : Fin 16, ∑ c : Fin 6, refImage (sub P b c) (sub T b c) : ℝ) : EReal) := by
  rw [sum_idx5]
  simp only [v69_apply, refImage, coe_sum]

/-- The reference's result at inputs that are reals. -/
theorem ref_value_rd (P T : Batch) :
    val_main_v72 (F := Ideal) (rd P) (rd T) ix0
      = (((∑ b : Fin 16, ∑ c : Fin 6, refImage (sub P b c) (sub T b c)) / 25165824 : ℝ) : EReal) := by
  rw [val_main_v72_apply, val_main_cst_9_apply, val_main_v71_apply, val_main_cst_8_apply, val_main_v70_apply,
    val_main_cst_7_apply, sum_v69, Ideal.mulf_def, Ideal.hostDivf_def, Ideal.ofBits_def, Ideal.ofBits_def, Ideal.ofBits_def,
    Cert.Consts.ofBits_one, Cert.Consts.ofBits_count, Cert.Consts.ofBits_zero,
    Ideal.div_coe (by norm_num : (25165824 : ℝ) ≠ 0), zero_add, one_mul, ← EReal.coe_mul, mul_one_div]

/-- **The reference program read at the reals**: the sum over the 16 × 6 images of the L1 distance of pred's and target's
    Haar transforms, divided by the number of coefficients. -/
theorem ref_value (P T : Cert.Haar.Batch) :
    Cert.ReferenceIdeal.Read.val_main_v72 (F := Ideal) (fun i => ((P i : ℝ) : EReal)) (fun i => ((T i : ℝ) : EReal)) Idealize.ShloMosaic.ValueIdx.ix0
      = (((∑ b : Fin 16, ∑ c : Fin 6, Cert.Haar.refImage (Cert.Haar.sub P b c) (Cert.Haar.sub T b c)) / 25165824 : ℝ) : EReal) :=
  ref_value_rd P T

end Cert.ReferenceIdeal.RefValue

end
-- ==== Proof.Finite.lean ====
/-
  What the precondition gives: every entry of both input batches is a real number. The printed predicate is
  `all(|pred| < +inf) and all(|target| < +inf)`; an extended real whose absolute value is below +inf is neither
  infinity, so each batch is the coercion of a batch of reals.
-/
import proofs.«418155_j79113297592488_3_alg».proof.Pre_finite_inputs
import proofs.«418155_j79113297592488_3_alg».proof.Proof.HaarSpec
import Idealize.ShloMosaic.Lib.ReduceAll
import Idealize.ShloMosaic.Lib.Affine
import Idealize.ShloMosaic.Lib.IdealHost
import Idealize.ShloMosaic.Lib.ValueIdx

noncomputable section

namespace Cert.Finite

open Idealize.ShloMosaic Idealize.ShloMosaic.ValueIdx Cert.Pre_finite_inputs Cert.Pre_finite_inputs.Facts

instance : Subsingleton S_.Idx := ⟨fun _ _ => funext fun d => d.elim0⟩

/-- The word `0x7F800000` is +inf. -/
theorem ofBits_inf : Ideal.ofBits .f32 0x7F800000#32 = ⊤ := by
  simp [Ideal.ofBits, Ideal.ieee]

/-- An extended real whose absolute value compares below +inf is a real. -/
theorem real_of_abs_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One `all(|x| < +inf)` that holds makes the batch a batch of reals. -/
theorem real_of_all [Facts] (x : FVec Ideal S16x6x512x512 .f32)
    (h : Host.reduce IntOp.andi (cmpf .olt (Host.absf x) (broadcastInDim S16x6x512x512 ![] bcast_S_S16x6x512x512 (constant S_ .f32 0x7F800000#32)))
      (constantI S_ 1 1#1) reducesTo_S16x6x512x512_S_d0_1_2_3 h_S_ ix0 = 1#1) :
    ∃ X : Cert.Haar.Batch, x = fun i => ((X i : ℝ) : EReal) := by
  have hx : ∀ i, ∃ r : ℝ, x i = (r : EReal) := fun i => by
    have hi := Host.reduce_andi_all _ _ _ _ _ h i
    refine real_of_abs_lt (x i) ?_
    have e : broadcastInDim S16x6x512x512 ![] bcast_S_S16x6x512x512 (constant (F := Ideal) S_ .f32 0x7F800000#32) i = ⊤ := by
      rw [broadcastInDim_scalar_apply]; exact ofBits_inf
    have hi' : Ideal.cmp .olt (max (x i) (-(x i))) (broadcastInDim S16x6x512x512 ![] bcast_S_S16x6x512x512 (constant (F := Ideal) S_ .f32 0x7F800000#32) i) = 1#1 := hi
    rw [e] at hi'
    exact hi'
  choose X hX using hx
  exact ⟨X, funext hX⟩

/-- The precondition, all ones, makes both batches batches of reals. -/
theorem real_of_pre [Facts] (x0 x1 : FVec Ideal S16x6x512x512 .f32) (h : fn (F := Ideal) x0 x1 = fun _ => 1#1) :
    (∃ P : Cert.Haar.Batch, x0 = fun i => ((P i : ℝ) : EReal)) ∧ (∃ T : Cert.Haar.Batch, x1 = fun i => ((T i : ℝ) : EReal)) := by
  have h0 := congrFun h ix0
  dsimp only [fn] at h0
  have h1 := IntOp.andi_eq_one.mp h0
  exact ⟨real_of_all x0 h1.1, real_of_all x1 h1.2⟩

end Cert.Finite

end
-- ==== Proof.lean ====
/-
  The kernel computes the mean absolute difference of the level-1 Haar transforms of pred and target, and so does the
  reference; this file assembles the claim.

  The three frames: the kernel's and the idealized kernel's runs terminate with the arguments unchanged (their frame
  modules), and the reference's run, a straight line of host operations, does too. The idealization named one
  constant, the kernel's folded reciprocal of the coefficient count, as the rational 1/25165824: that is the one
  conjunct of `preserves`. For `algebraic`: under the precondition both input batches are batches of reals (module
  Finite); the idealized kernel returns one times (the sum over its 48 grid points of the two images' sums) times
  1/25165824 (modules KernelCases, KernelRun, KernelPoint, KernelValue); the reference returns one times (zero plus the
  sum over the 16 × 6 images, the four subbands and the 256 × 256 blocks of the absolute coefficient differences)
  divided by 25165824 (module RefRead); and the two sums are equal: image by image the kernel's masked sum over even
  rows and lanes is the sum of the blocks' four subband distances, because |½ y| = ½ |y| and each subband difference is
  half of one sign combination of the difference image's 2 × 2 block (module HaarImage), and the two ways of walking
  the 96 images agree (module HaarBatch). Dividing by 25165824 is multiplying by its reciprocal.
-/
import proofs.«418155_j79113297592488_3_alg».proof.Defs
import proofs.«418155_j79113297592488_3_alg».proof.Proof.Gen.Kernel
import proofs.«418155_j79113297592488_3_alg».proof.Proof.Gen.Kernel.Frame
import proofs.«418155_j79113297592488_3_alg».proof.Proof.Gen.KernelIdeal
import proofs.«418155_j79113297592488_3_alg».proof.Proof.Gen.KernelIdeal.Frame
import proofs.«418155_j79113297592488_3_alg».proof.Proof.Gen.ReferenceIdeal
import proofs.«418155_j79113297592488_3_alg».proof.Proof.Gen.ReferenceIdeal.Run
import proofs.«418155_j79113297592488_3_alg».proof.Proof.Gen.Pre_finite_inputs
import proofs.«418155_j79113297592488_3_alg».proof.Proof.KernelValue
import proofs.«418155_j79113297592488_3_alg».proof.Proof.RefRead
import proofs.«418155_j79113297592488_3_alg».proof.Proof.Finite
import proofs.«418155_j79113297592488_3_alg».proof.Proof.HaarBatch
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one named constant: the table gives it the value 1/25165824, and the printed constant is that value. -/
theorem preserves : Cert.preserves_Kernel_KernelIdeal :=
  IdealRules.named_const.statement Cert.KernelIdeal.κ "fold_inv_25165824" .f32 0x332AAAAB#32 ((1 / 25165824 : ℝ) : EReal) rfl

/-- Both programs return the same real: the batch's total Haar L1 distance over the number of coefficients. -/
theorem algebraic : Cert.algebraic_KernelIdeal_ReferenceIdeal := by
  intro m ρ m' ρ' hpre hagree
  have hreal : ∀ c : Dev Cert.KernelIdeal.nD, ∃ P T : Cert.Haar.Batch,
      m ((c.tc : Thread Cert.KernelIdeal.nD Cert.KernelIdeal.τ).loc Cert.KernelIdeal.main_arg0) = (fun i => ((P i : ℝ) : EReal))
      ∧ m ((c.tc : Thread Cert.KernelIdeal.nD Cert.KernelIdeal.τ).loc Cert.KernelIdeal.main_arg1) = (fun i => ((T i : ℝ) : EReal)) := fun c => by
    obtain ⟨⟨P, hP⟩, ⟨T, hT⟩⟩ := Cert.Finite.real_of_pre _ _ (hpre c)
    exact ⟨P, T, hP, hT⟩
  choose P T hPT using hreal
  refine ⟨fun c => Cert.KernelIdeal.Run.returned m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, (hagree c).1, (hagree c).2, (hPT c).1, (hPT c).2]
  funext j
  rw [eq_ix0 j, Cert.ReferenceIdeal.RefValue.ref_value]
  refine Eq.trans ?_ (Cert.KernelIdeal.Reals.returned_apply m (P c) (T c) c (hPT c).1 (hPT c).2 ix0).symm
  have hs : (∑ i ∈ Finset.range 48, Cert.KernelIdeal.Reals.pointSum (P c) (T c) i)
      = ∑ b : Fin 16, ∑ d : Fin 6, Cert.Haar.refImage (Cert.Haar.sub (P c) b d) (Cert.Haar.sub (T c) b d) :=
    Cert.Haar.batch_sum (P c) (T c)
  rw [hs, div_eq_mul_one_div]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
